-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S32x32 : Shape := ⟨2, ![32, 32]⟩
abbrev S32 : Shape := ⟨1, ![32]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S65536x32 .f32) (main_arg1 : FVec F S32x32 .f32) (main_arg2 : FVec F S32 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S65536x32 : Shape := ⟨2, ![65536, 32]⟩
abbrev S32x32 : Shape := ⟨2, ![32, 32]⟩
abbrev S32 : Shape := ⟨1, ![32]⟩
abbrev S32x65536 : Shape := ⟨2, ![32, 65536]⟩
abbrev S32x32768 : Shape := ⟨2, ![32, 32768]⟩
abbrev S32x16384 : Shape := ⟨2, ![32, 16384]⟩
abbrev S32x1 : Shape := ⟨2, ![32, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x32, .f32⟩
  | .hbm, ⟨1, _⟩ => ⟨S32x32, .f32⟩
  | .hbm, ⟨2, _⟩ => ⟨S32, .f32⟩
  | .hbm, ⟨3, _⟩ => ⟨S32x65536, .f32⟩
  | .hbm, ⟨4, _⟩ => ⟨S32x65536, .f32⟩
  | .hbm, ⟨5, _⟩ => ⟨S65536x32, .f32⟩
  | .local _ .vmem, ⟨0, _⟩ => ⟨S32x32768, .f32⟩
  | .local _ .vmem, ⟨1, _⟩ => ⟨S32x32768, .f32⟩
  | .local _ .vmem, ⟨2, _⟩ => ⟨S32x32, .f32⟩
  | .local _ .vmem, ⟨3, _⟩ => ⟨S32, .f32⟩
  | .local _ .vmem, ⟨4, _⟩ => ⟨S32x16384, .f32⟩
  | .local _ .vmem, ⟨5, _⟩ => ⟨S32x16384, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 2], ![false, false]⟩

def k0_off1 (i : grid0.Coords) : Fin 2 → Nat :=
  let c0 : Index := 0#32
  let arg1 : BitVec 32 := BitVec.ofNat 32 (i 1).val
  let c16384_i32 : BitVec 32 := 16384#32
  let v0 : BitVec 32 := Scalar.muli arg1 c16384_i32
  let v1 : Index := Scalar.indexCast v0
  ![0, v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S65536x32_S32x65536_1_0 : S65536x32.Transposes [1, 0] S32x65536
  h_S32x16384 : 0 < S32x16384.numel
  shapeCasts_S32x16384_S32x16384 : S32x16384.ShapeCasts S32x16384
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S32x1 : S32.ShapeCasts S32x1
  broadcasts_S32x1_S32x16384 : S32x1.Broadcasts S32x16384
  inb_S32x16384_S32x16384_0_0 : ∀ a, (![0, 0] : Fin 2 → Nat) a + S32x16384.size a ≤ S32x16384.size a
  transposes_S32x65536_S65536x32_1_0 : S32x65536.Transposes [1, 0] S65536x32
  dot_S32x32_S32x16384_S32x16384_0_0_1_1_n_n_wf : DotDims.WF S32x32 S32x16384 S32x16384 [0] [0] [1] [1] [] []
  hrank0 : 0 < grid0.rank
  k0_off1_inb : ∀ i : grid0.Coords, ∀ a, (k0_off1 i) a + S32x16384.size a ≤ S32x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S32x65536.size a
  hwx0_0 : ∀ i : grid0.Coords, EltTy.bits .f32 = 32 ∨ (Rect.block (s := S32x65536) S32x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S32x65536.size a
  hwx0_3 : ∀ i : grid0.Coords, EltTy.bits .f32 = 32 ∨ (Rect.block (s := S32x65536) S32x16384.size (cc0_transform_3 i) (hinb0_3 i)).WholeWords (EltTy.packing .f32)

variable [Facts₀]

def dot_S32x32_S32x16384_S32x16384_0_0_1_1_n_n : DotDims S32x32 S32x16384 S32x16384 where
  lhsContracting := [0]
  rhsContracting := [0]
  lhsNonContracting := [1]
  rhsNonContracting := [1]
  lhsBatch := []
  rhsBatch := []
  wf := dot_S32x32_S32x16384_S32x16384_0_0_1_1_n_n_wf

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x32 : Shape := ⟨2, ![65536, 32]⟩
abbrev S32x32 : Shape := ⟨2, ![32, 32]⟩
abbrev S32 : Shape := ⟨1, ![32]⟩
abbrev S1x32 : Shape := ⟨2, ![1, 32]⟩

abbrev nBuf : Space → Nat
  | .hbm => 7
  | .vmem => 0
  | .smem => 0
  | _ => 0

abbrev bufTy : (tb : Table) → Fin (tcTables nBuf tb) → BufTy
  | .hbm, ⟨0, _⟩ => ⟨S65536x32, .f32⟩
  | .hbm, ⟨1, _⟩ => ⟨S32x32, .f32⟩
  | .hbm, ⟨2, _⟩ => ⟨S32, .f32⟩
  | .hbm, ⟨3, _⟩ => ⟨S65536x32, .f32⟩
  | .hbm, ⟨4, _⟩ => ⟨S1x32, .f32⟩
  | .hbm, ⟨5, _⟩ => ⟨S65536x32, .f32⟩
  | .hbm, ⟨6, _⟩ => ⟨S65536x32, .f32⟩
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  dot_S65536x32_S32x32_S65536x32_1_0_0_1_n_n_wf : DotDims.WF S65536x32 S32x32 S65536x32 [1] [0] [0] [1] [] []

variable [Facts₀]

def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf

class Facts : Prop extends Facts₀ where

variable [Facts]
-- ==== Proof.Affine.lean ====
/-
  The function both programs compute, over the extended reals: the affine map of a row,

      y[r, d] = (Σ_{k < 32} x[r, k] · W[k, d]) + b[d]        (r < 65536, d < 32),

  stated once, entry by entry, and laid out two ways: rows × features (the result array of both programs) and
  features × rows (the array the kernel's region writes, before it is transposed back). The sum is a finite sum in
  the commutative monoid of the extended reals under addition; the only law the two programs' agreement needs is
  the commutativity of the product of two extended reals, so no input has to be finite.
-/
import Idealize.ShloMosaic.PureOps.Ideal
import Idealize.ShloMosaic.Lib.ValueIdx

noncomputable section

namespace Cert.Affine

open Idealize.ShloMosaic Idealize.ShloMosaic.ValueIdx

/-- rows × features: the input batch and the result. -/
abbrev RowsByFeat : Shape := ⟨2, ![65536, 32]⟩
/-- features × features: the weight, stored (in, out). -/
abbrev Weight : Shape := ⟨2, ![32, 32]⟩
/-- features: the bias. -/
abbrev Feat : Shape := ⟨1, ![32]⟩
/-- features × rows: the transposed layout the kernel's region works in. -/
abbrev FeatByRows : Shape := ⟨2, ![32, 65536]⟩

/-- Entry (r, d) of the result: row r of x against column d of W, plus b at d. -/
def entry (x : FVec Ideal RowsByFeat .f32) (W : FVec Ideal Weight .f32) (b : FVec Ideal Feat .f32)
    (r : Fin 65536) (d : Fin 32) : EReal :=
  (∑ k : Fin 32, x (ix2 r k) * W (ix2 k d)) + b (ix1 d)

/-- The result, rows × features. -/
def rowsForm (x : FVec Ideal RowsByFeat .f32) (W : FVec Ideal Weight .f32) (b : FVec Ideal Feat .f32) :
    FVec Ideal RowsByFeat .f32 := fun i => entry x W b (i 0) (i 1)

/-- The same numbers, features × rows. -/
def colsForm (x : FVec Ideal RowsByFeat .f32) (W : FVec Ideal Weight .f32) (b : FVec Ideal Feat .f32) :
    FVec Ideal FeatByRows .f32 := fun j => entry x W b (j 1) (j 0)

theorem rowsForm_apply (x : FVec Ideal RowsByFeat .f32) (W : FVec Ideal Weight .f32) (b : FVec Ideal Feat .f32)
    (r : Fin 65536) (d : Fin 32) : rowsForm x W b (ix2 r d) = entry x W b r d := rfl

theorem colsForm_apply (x : FVec Ideal RowsByFeat .f32) (W : FVec Ideal Weight .f32) (b : FVec Ideal Feat .f32)
    (d : Fin 32) (r : Fin 65536) : colsForm x W b (ix2 d r) = entry x W b r d := rfl

/-- The entry with the factors in the other order (the kernel multiplies W's column by x's row). -/
theorem entry_comm (x : FVec Ideal RowsByFeat .f32) (W : FVec Ideal Weight .f32) (b : FVec Ideal Feat .f32)
    (r : Fin 65536) (d : Fin 32) :
    (∑ k : Fin 32, W (ix2 k d) * x (ix2 r k)) + b (ix1 d) = entry x W b r d := by
  unfold entry
  exact congrArg (· + b (ix1 d)) (Finset.sum_congr rfl fun k _ => mul_comm _ _)

end Cert.Affine

end
-- ==== Proof.RefAffine.lean ====
/-
  The reference's result is the affine map, rows × features. Its program is one host product x · W (contracting
  x's feature axis against W's input axis), the bias broadcast first to one row and then down every row, and one
  addition. Read at an index (r, d) this is (Σ_k x[r, k] · W[k, d]) + b[d], which is the specification's entry as it
  stands: the factors are already in the specification's order.
-/
import proofs.«172693_g32521492365339_cont_8to1_b_661_17_alg».proof.Proof.Gen.ReferenceIdeal.Read
import proofs.«172693_g32521492365339_cont_8to1_b_661_17_alg».proof.Proof.Affine

noncomputable section

namespace Cert.ReferenceIdeal.IsAffine

open Cert.ReferenceIdeal Cert.ReferenceIdeal.Read Idealize.ShloMosaic Idealize.ShloMosaic.ValueIdx

/-- The product's left operand index at output (r, d) and contraction coordinate k is (r, k). -/
theorem left_index (i : S65536x32.Idx) (k : Fin 32) : lidx_main_v0 i k = ix2 (i 0) k :=
  funext fun a => Fin.ext (by match a with | ⟨0, _⟩ => rfl | ⟨1, _⟩ => rfl)

/-- Its right operand index is (k, d). -/
theorem right_index (i : S65536x32.Idx) (k : Fin 32) : ridx_main_v0 i k = ix2 k (i 1) :=
  funext fun a => Fin.ext (by match a with | ⟨0, _⟩ => rfl | ⟨1, _⟩ => rfl)

/-- The two broadcasts of the bias read b at the output's feature coordinate. -/
theorem bias_index (i : S65536x32.Idx) : idx_main_v1 (idx_main_v2 i) = ix1 (i 1) :=
  funext fun a => Fin.ext (by match a with | ⟨0, _⟩ => rfl)

/-- The reference's last stage is the affine map of its three arguments. -/
theorem result_eq (x : (⟨S65536x32, .f32⟩ : BufTy).Contents (Elt Ideal)) (W : (⟨S32x32, .f32⟩ : BufTy).Contents (Elt Ideal))
    (b : (⟨S32, .f32⟩ : BufTy).Contents (Elt Ideal)) :
    val_main_v3 (F := Ideal) x W b = Cert.Affine.rowsForm x W b := by
  funext i
  rw [val_main_v3_apply, val_main_v0_apply, val_main_v2_apply, val_main_v1_apply]
  simp only [left_index, right_index, bias_index]
  rfl

end Cert.ReferenceIdeal.IsAffine

end
-- ==== Proof.BlockProduct.lean ====
/-
  What one grid point computes, entry by entry. The body loads a 32 × 16384 slab xs of the transposed input, the
  whole 32 × 32 weight w and the bias v, and stores  wᵀ · xs + v  (the product contracts the FIRST axis of both
  operands; the bias is viewed as a column and repeated along the slab's columns). At entry (d, c):

      (Σ_{k < 32} w[k, d] · xs[k, c]) + v[d].

  The product into the zero accumulator is the bare sum (0 + s = s), re-indexed from the one-axis contraction shape
  to k < 32; the operand indices are read off the dimension numbers axis by axis.
-/
import proofs.«172693_g32521492365339_cont_8to1_b_661_17_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-! ## The product's operand indices, axis by axis -/

/-- The weight's contracted axis (its first) carries the contraction coordinate. -/
theorem lhs_axis0 (i : S32x16384.Idx) (q : dot_S32x32_S32x16384_S32x16384_0_0_1_1_n_n.contr.Idx) :
    (dot_S32x32_S32x16384_S32x16384_0_0_1_1_n_n.lhsIdx i q 0).val = (q ⟨0, by decide⟩).val :=
  dot_S32x32_S32x16384_S32x16384_0_0_1_1_n_n.lhsIdx_val_of_single rfl i q
/-- The weight's free axis (its second) carries the output's row. -/
theorem lhs_axis1 (i : S32x16384.Idx) (q : dot_S32x32_S32x16384_S32x16384_0_0_1_1_n_n.contr.Idx) :
    (dot_S32x32_S32x16384_S32x16384_0_0_1_1_n_n.lhsIdx i q 1).val = (i 0).val := by
  unfold DotDims.lhsIdx
  rw [dif_neg (show ¬(1 : Fin S32x32.rank) ∈ dot_S32x32_S32x16384_S32x16384_0_0_1_1_n_n.lhsBatch by decide), dif_pos (show (1 : Fin S32x32.rank) ∈ dot_S32x32_S32x16384_S32x16384_0_0_1_1_n_n.lhsNonContracting by decide)]
  rfl
/-- The slab's contracted axis (its first) carries the contraction coordinate. -/
theorem rhs_axis0 (i : S32x16384.Idx) (q : dot_S32x32_S32x16384_S32x16384_0_0_1_1_n_n.contr.Idx) :
    (dot_S32x32_S32x16384_S32x16384_0_0_1_1_n_n.rhsIdx i q 0).val = (q ⟨0, by decide⟩).val :=
  dot_S32x32_S32x16384_S32x16384_0_0_1_1_n_n.rhsIdx_val_of_single rfl i q
/-- The slab's free axis (its second) carries the output's column. -/
theorem rhs_axis1 (i : S32x16384.Idx) (q : dot_S32x32_S32x16384_S32x16384_0_0_1_1_n_n.contr.Idx) :
    (dot_S32x32_S32x16384_S32x16384_0_0_1_1_n_n.rhsIdx i q 1).val = (i 1).val := by
  unfold DotDims.rhsIdx
  rw [dif_neg (show ¬(1 : Fin S32x16384.rank) ∈ dot_S32x32_S32x16384_S32x16384_0_0_1_1_n_n.rhsBatch by decide), dif_pos (show (1 : Fin S32x16384.rank) ∈ dot_S32x32_S32x16384_S32x16384_0_0_1_1_n_n.rhsNonContracting by decide)]
  rfl

/-! ## The product into zero, at an entry -/

/-- wᵀ · xs at (d, c) is Σ_k w[k, d] · xs[k, c]. -/
theorem product_apply (w : Vec Ideal S32x32 .f32) (xs : Vec Ideal S32x16384 .f32) (d : Fin 32) (c : Fin 16384) :
    matmul (F := Ideal) (φ₁ := .f32) (φ₂ := .f32) dot_S32x32_S32x16384_S32x16384_0_0_1_1_n_n none w xs (constant (F := Ideal) S32x16384 .f32 0x00000000#32) (ix2 d c)
      = ∑ k : Fin 32, w (ix2 k d) * xs (ix2 k c) := by
  simp only [matmul]
  rw [Ideal.matmul_constant_zero_apply, ← Equiv.sum_comp (contrEquiv1 dot_S32x32_S32x16384_S32x16384_0_0_1_1_n_n 32 rfl rfl).symm]
  refine Finset.sum_congr rfl fun k _ => ?_
  have hk := contrEquiv1_symm_val dot_S32x32_S32x16384_S32x16384_0_0_1_1_n_n 32 rfl rfl k
  have el : dot_S32x32_S32x16384_S32x16384_0_0_1_1_n_n.lhsIdx (ix2 d c) ((contrEquiv1 dot_S32x32_S32x16384_S32x16384_0_0_1_1_n_n 32 rfl rfl).symm k) = ix2 k d := funext fun a => Fin.ext (by
    match a with
    | ⟨0, _⟩ => exact (lhs_axis0 _ _).trans hk
    | ⟨1, _⟩ => exact lhs_axis1 _ _)
  have er : dot_S32x32_S32x16384_S32x16384_0_0_1_1_n_n.rhsIdx (ix2 d c) ((contrEquiv1 dot_S32x32_S32x16384_S32x16384_0_0_1_1_n_n 32 rfl rfl).symm k) = ix2 k c := funext fun a => Fin.ext (by
    match a with
    | ⟨0, _⟩ => exact (rhs_axis0 _ _).trans hk
    | ⟨1, _⟩ => exact rhs_axis1 _ _)
  rw [el, er]

/-! ## The bias as a column, repeated along the columns -/

/-- The bias viewed 32 × 1 and repeated to 32 × 16384 reads v[d] at (d, c). -/
theorem bias_apply (v : Vec Ideal S32 .f32) (d : Fin 32) (c : Fin 16384) :
    broadcastTo S32x16384 (shapeCast S32x1 v shapeCasts_S32_S32x1) broadcasts_S32x1_S32x16384 (ix2 d c) = v (ix1 d) := by
  rw [broadcastTo_apply _ broadcasts_S32x1_S32x16384 (ix2 d c) (ix2 d (0 : Fin 1)) (fun a => by
    match a with
    | ⟨0, _⟩ => show d.val = if (32 : Nat) = 1 then 0 else d.val; rw [if_neg (by decide)]
    | ⟨1, _⟩ => show 0 = if (1 : Nat) = 1 then 0 else c.val; rw [if_pos rfl])]
  exact shapeCast_apply v shapeCasts_S32_S32x1 (ix2 d (0 : Fin 1)) (ix1 d) (by
    rw [Shape.rowMajor_val_one, Shape.rowMajor_val_two]
    show d.val = d.val * 1 + 0
    omega)

/-! ## The stored value -/

/-- The value the body stores, at entry (d, c) of the point's block. -/
theorem stored_apply (xs : Vec Ideal S32x16384 .f32) (w : Vec Ideal S32x32 .f32) (v : Vec Ideal S32 .f32)
    (d : Fin 32) (c : Fin 16384) :
    k0_pay1 (F := Ideal) xs w v (ix2 d c) = (∑ k : Fin 32, w (ix2 k d) * xs (ix2 k c)) + v (ix1 d) := by
  unfold k0_pay1
  rw [addf_apply, shapeCast_self, product_apply, bias_apply]

end Cert.KernelIdeal.BlockProduct

end
-- ==== Proof.RegionArray.lean ====
/-
  The array the kernel's region leaves, features × rows: the affine map in its transposed layout.

  The region runs over four points t = 2·i + j (i, j < 2). At point t the body sees columns [32768·i, 32768·(i+1)) of
  the transposed input (a 32 × 32768 block), takes its slab of 16384 columns starting at 16384·j, and writes block t
  of the output: columns [16384·t, 16384·(t+1)). Since 32768·i + 16384·j = 16384·t, entry (d, cc) of the stored block
  is  (Σ_k W[k, d] · xᵀ[k, 16384·t + cc]) + b[d],  and xᵀ[k, r] = x[r, k]: the affine map's entry (r, d) at row
  r = 16384·t + cc, with the two factors of each product exchanged (the product of extended reals commutes).
  The four blocks tile the 65536 columns, so the whole array is the transposed form of the affine map.
-/
import proofs.«172693_g32521492365339_cont_8to1_b_661_17_alg».proof.Proof.Gen.KernelIdeal.Frame
import proofs.«172693_g32521492365339_cont_8to1_b_661_17_alg».proof.Proof.BlockProduct
import proofs.«172693_g32521492365339_cont_8to1_b_661_17_alg».proof.Proof.Affine
import Idealize.ShloMosaic.Lib.Pipeline.Value
import Idealize.ShloMosaic.Lib.StableHlo.Run
import Idealize.ShloMosaic.Lib.Tactic

noncomputable section

namespace Cert.KernelIdeal.RegionArray

open Cert.KernelIdeal Cert.KernelIdeal.Gen Idealize.ShloMosaic Idealize.ShloMosaic.TcCoe Idealize.SL.Sem
open Idealize.ShloMosaic.ValueIdx
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a <;> rfl

/-! ## What the body leaves in the output block, at any values -/

section AnyValues
variable {F : FTy → Type} [FloatOps F]

/-- The 16384 columns of the input block the body multiplies: those from the body's computed offset on. -/
def slab (i : grid0.Coords) (x0 : Vec F S32x32768 .f32) : Vec F S32x16384 .f32 :=
  View.ld x0 (Rect.unit (s := S32x32768) (k0_off1 i) S32x16384.size (k0_off1_inb i))

/-- The body's one store covers the output block, so the block ends at the stored value of the three loads. -/
theorem block_left (c : Dev nD) (i : grid0.Coords) (a2 : Memref sig .tc .vmem S32x32768 .f32) (h2 : a2.IsWhole)
    (a3 : Memref sig .tc .vmem S32x32 .f32) (h3 : a3.IsWhole) (a4 : Memref sig .tc .vmem S32 .f32) (h4 : a4.IsWhole)
    (a5 : Memref sig .tc .vmem S32x16384 .f32) (h5 : a5.IsWhole)
    (x0 : Vec F S32x32768 .f32) (x1 : Vec F S32x32 .f32) (x2 : Vec F S32 .f32) :
    out0_A_3 c i a2 h2 a3 h3 a4 h4 a5 h5 x0 x1 x2 = k0_pay1 (slab i x0) x1 x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero zeros2]
  simp only [View.readAt_eq_ld, h2.read_unread, h3.read_unread, h4.read_unread, View.ld_unit_zero (S := S32x32) zeros2,
    View.ld_unit_zero (S := S32) zeros1]
  rfl

end AnyValues

/-! ## At the extended reals -/

variable (m : (ℓ : Loc nD τ sig) → Buf (Elt Ideal) ℓ) (ρ : Dev nD → PrngReg)

/-- The three argument arrays as launched, on core c. -/
abbrev xArg (c : Dev nD) : FVec Ideal Cert.Affine.RowsByFeat .f32 := m ((c : Thread nD τ).loc main_arg0)
abbrev wArg (c : Dev nD) : FVec Ideal Cert.Affine.Weight .f32 := m ((c : Thread nD τ).loc main_arg1)
abbrev bArg (c : Dev nD) : FVec Ideal Cert.Affine.Feat .f32 := m ((c : Thread nD τ).loc main_arg2)

/-- The three input blocks at point t, at their literal shapes. -/
abbrev xBlk (c : Dev nD) (t : Fin cfg0.N) : Vec Ideal S32x32768 .f32 := iblk m c 0 t
abbrev wBlk (c : Dev nD) (t : Fin cfg0.N) : Vec Ideal S32x32 .f32 := iblk m c 1 t
abbrev bBlk (c : Dev nD) (t : Fin cfg0.N) : Vec Ideal S32 .f32 := iblk m c 2 t

/-- The region finds, in the array its first window stages, the input transposed (the host line before it). -/
theorem transposed_in (c : Dev nD) :
    (V m c main_v0 : S32x65536.Idx → EReal) = transpose S32x65536 [1, 0] (xArg m c) transposes_S65536x32_S32x65536_1_0 := by
  show StableHlo.after hostOps0 (fun b => m (c, b)) (Proc.devRef .tc main_v0) = _
  after_results

/-- The index maps and the body's slab offset, decided over the four points: the input block index is t / 2 along the
    columns, the output's is t, the slab starts 16384·(t mod 2) columns into the input block; every other index is 0. -/
theorem grid_facts : ∀ t : Fin cfg0.N,
    win0_0.index t (0 : Fin 2) = 0 ∧ win0_0.index t (1 : Fin 2) = t.val / 2
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = t.val
    ∧ k0_off1 (grid0.coords t) (0 : Fin 2) = 0 ∧ k0_off1 (grid0.coords t) (1 : Fin 2) = (t.val % 2) * 16384 :=
  (by decide +kernel : ∀ t : Fin grid0.N, _)

/-- Column q of the input block at point t is row 32768·(t / 2) + q of x. -/
theorem xBlk_apply (c : Dev nD) (t : Fin cfg0.N) (k : Fin 32) (q : Fin 32768) (r : Fin 65536)
    (hr : r.val = (t.val / 2) * 32768 + q.val) : xBlk m c t (ix2 k q) = xArg m c (ix2 r k) := by
  obtain ⟨e0, e1, -⟩ := grid_facts t
  unfold xBlk iblk
  rw [View.read_apply]
  show V m c main_v0 _ = _
  rw [transposed_in]
  refine transpose_apply [1, 0] (xArg m c) transposes_S65536x32_S32x65536_1_0 _ (ix2 r k) (fun b => ?_)
  match b with
  | ⟨0, _⟩ => show k.val = win0_0.index t (0 : Fin 2) * 32 + 1 * k.val; rw [e0, Nat.zero_mul, Nat.zero_add, Nat.one_mul]
  | ⟨1, _⟩ => show r.val = win0_0.index t (1 : Fin 2) * 32768 + 1 * q.val; rw [e1, Nat.one_mul]; exact hr

/-- The weight's block is the whole weight. -/
theorem wBlk_apply (c : Dev nD) (t : Fin cfg0.N) (k d : Fin 32) : wBlk m c t (ix2 k d) = wArg m c (ix2 k d) := by
  obtain ⟨-, -, e0, e1, -⟩ := grid_facts t
  unfold wBlk iblk
  rw [View.read_apply]
  show V m c main_arg1 _ = _
  rw [V_main_arg1]
  refine congrArg (wArg m c) (funext fun a => Fin.ext ?_)
  match a with
  | ⟨0, _⟩ => show win0_1.index t (0 : Fin 2) * 32 + 1 * k.val = k.val; rw [e0, Nat.zero_mul, Nat.zero_add, Nat.one_mul]
  | ⟨1, _⟩ => show win0_1.index t (1 : Fin 2) * 32 + 1 * d.val = d.val; rw [e1, Nat.zero_mul, Nat.zero_add, Nat.one_mul]

/-- The bias's block is the whole bias. -/
theorem bBlk_apply (c : Dev nD) (t : Fin cfg0.N) (d : Fin 32) : bBlk m c t (ix1 d) = bArg m c (ix1 d) := by
  obtain ⟨-, -, -, -, e0, -⟩ := grid_facts t
  unfold bBlk iblk
  rw [View.read_apply]
  show V m c main_arg2 _ = _
  rw [V_main_arg2]
  refine congrArg (bArg m c) (funext fun a => Fin.ext ?_)
  match a with
  | ⟨0, _⟩ => show win0_2.index t (0 : Fin 1) * 32 + 1 * d.val = d.val; rw [e0, Nat.zero_mul, Nat.zero_add, Nat.one_mul]

/-- Column cc of the slab is column (offset + cc) of the block it is cut from. -/
theorem slab_apply (i : grid0.Coords) (xb : Vec Ideal S32x32768 .f32) (k : Fin 32) (cc : Fin 16384) (q : Fin 32768)
    (h0 : k0_off1 i (0 : Fin 2) = 0) (hq : q.val = k0_off1 i (1 : Fin 2) + cc.val) :
    slab i xb (ix2 k cc) = xb (ix2 k q) := by
  unfold slab
  show xb _ = _
  refine congrArg xb (funext fun a => Fin.ext ?_)
  match a with
  | ⟨0, _⟩ => show k0_off1 i (0 : Fin 2) + 1 * k.val = k.val; rw [h0, Nat.zero_add, Nat.one_mul]
  | ⟨1, _⟩ => show k0_off1 i (1 : Fin 2) + 1 * cc.val = q.val; rw [Nat.one_mul]; exact hq.symm

/-- The affine map, features × rows, of the launched arguments: what the region's output array ends holding. -/
abbrev target (c : Dev nD) : FVec Ideal Cert.Affine.FeatByRows .f32 :=
  Cert.Affine.colsForm (xArg m c) (wArg m c) (bArg m c)

/-- Entry (d, cc) of what point t stores is the affine map's entry at row 16384·t + cc, feature d. -/
theorem stored_entry (c : Dev nD) (t : Fin cfg0.N) (d : Fin 32) (cc : Fin 16384) (r : Fin 65536)
    (hr : r.val = t.val * 16384 + cc.val) :
    k0_pay1 (F := Ideal) (slab (grid0.coords t) (xBlk m c t)) (wBlk m c t) (bBlk m c t) (ix2 d cc)
      = Cert.Affine.entry (xArg m c) (wArg m c) (bArg m c) r d := by
  have hN : cfg0.N = 4 := N_0
  have ht : t.val < 4 := hN ▸ t.isLt
  have hcc : cc.val < 16384 := cc.isLt
  have hq : (t.val % 2) * 16384 + cc.val < 32768 := by omega
  have hrow : r.val = t.val / 2 * 32768 + ((t.val % 2) * 16384 + cc.val) := by rw [hr]; clear hr; omega
  obtain ⟨-, -, -, -, -, -, -, o0, o1⟩ := grid_facts t
  refine (BlockProduct.stored_apply (slab (grid0.coords t) (xBlk m c t)) (wBlk m c t) (bBlk m c t) d cc).trans ?_
  rw [bBlk_apply]
  refine Eq.trans ?_ (Cert.Affine.entry_comm (xArg m c) (wArg m c) (bArg m c) r d)
  refine congrArg (· + bArg m c (ix1 d)) (Finset.sum_congr rfl fun k _ => ?_)
  rw [wBlk_apply, slab_apply (grid0.coords t) (xBlk m c t) k cc ⟨(t.val % 2) * 16384 + cc.val, hq⟩ o0 (by rw [o1]),
    xBlk_apply m c t k ⟨(t.val % 2) * 16384 + cc.val, hq⟩ r hrow]

/-- What point t writes back is block t of the target. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3]
  unfold outsAt0
  rw [block_left]
  have hN : cfg0.N = 4 := N_0
  have ht : t.val < 4 := hN ▸ t.isLt
  funext j
  obtain ⟨d, cc, rfl⟩ : ∃ (d : Fin 32) (cc : Fin 16384), j = ix2 d cc := ⟨j 0, j 1, eq_ix2 j⟩
  have hcc : cc.val < 16384 := cc.isLt
  have hr : t.val * 16384 + cc.val < 65536 := by omega
  obtain ⟨-, -, -, -, -, e0, e1, -⟩ := grid_facts t
  refine (stored_entry m c t d cc ⟨t.val * 16384 + cc.val, hr⟩ rfl).trans ?_
  rw [View.read_apply]
  show _ = target m c _
  refine (Cert.Affine.colsForm_apply (xArg m c) (wArg m c) (bArg m c) d ⟨t.val * 16384 + cc.val, hr⟩).symm.trans ?_
  refine congrArg (target m c) (funext fun a => Fin.ext ?_)
  match a with
  | ⟨0, _⟩ => show d.val = win0_3.index t (0 : Fin 2) * 32 + 1 * d.val; rw [e0, Nat.zero_mul, Nat.zero_add, Nat.one_mul]
  | ⟨1, _⟩ => show t.val * 16384 + cc.val = win0_3.index t (1 : Fin 2) * 16384 + 1 * cc.val; rw [e1, Nat.one_mul]

/-- An index of the output array is in point t's block iff each coordinate is in the block's range on its axis. -/
theorem mem_block (t : Fin cfg0.N) (i : S32x65536.Idx) :
    i ∈ ((cfg0.win 3).blk t).view.set ↔ ∀ a : Fin 2, win0_3.index t a * S32x16384.size a ≤ (i a).val ∧ (i a).val < win0_3.index t a * S32x16384.size a + S32x16384.size a := by
  show i ∈ ((View.whole main_v1).slice (win0_3.rect t)).set ↔ _
  rw [View.set_slice_whole, Rect.mem_set_unit]
  exact Iff.rfl

/-- Every column r belongs to the block of point r / 16384: the four blocks tile the array. -/
theorem tiled (i : S32x65536.Idx) : ∃ t : Fin cfg0.N, (cfg0.win 3).flush t = true ∧ i ∈ ((cfg0.win 3).blk t).view.set := by
  have hN : cfg0.N = 4 := N_0
  have hi0 : (i 0).val < 32 := (i 0).isLt
  have hi1 : (i 1).val < 65536 := (i 1).isLt
  refine ⟨⟨(i 1).val / 16384, by rw [hN]; omega⟩, flush0_3 _, ?_⟩
  obtain ⟨-, -, -, -, -, e0, e1, -⟩ := grid_facts ⟨(i 1).val / 16384, by rw [hN]; omega⟩
  rw [mem_block]
  intro a
  match a with
  | ⟨0, _⟩ => show win0_3.index _ (0 : Fin 2) * 32 ≤ (i 0).val ∧ (i 0).val < win0_3.index _ (0 : Fin 2) * 32 + 32; rw [e0]; clear e0 e1; omega
  | ⟨1, _⟩ => show win0_3.index _ (1 : Fin 2) * 16384 ≤ (i 1).val ∧ (i 1).val < win0_3.index _ (1 : Fin 2) * 16384 + 16384; rw [e1]; clear e0 e1; dsimp only; omega

/-- The region's output array after the run is the target. -/
theorem region_array (c : Dev nD) : (dats m 0 c).arrAt 3 cfg0.N = target m c :=
  (dats m 0 c).arrAt_eq_of_cover 3 (target m c) (fun t _ => flushed_eq m c t) tiled

end Cert.KernelIdeal.RegionArray

end
-- ==== Proof.KernelResult.lean ====
/-
  The kernel's result. After the region the program transposes the features × rows array back to rows × features,
  so entry (r, d) of the result is entry (d, r) of the region's array: the affine map's entry (r, d). The run below
  is the frame run with that one array named; the three arguments end as launched.
-/
import proofs.«172693_g32521492365339_cont_8to1_b_661_17_alg».proof.Proof.RegionArray

noncomputable section

namespace Cert.KernelIdeal.Result

open Cert.KernelIdeal Cert.KernelIdeal.Gen Cert.KernelIdeal.RegionArray
open Idealize.ShloMosaic Idealize.ShloMosaic.TcCoe Idealize.SL.Sem Idealize.ShloMosaic.ValueIdx

variable (m : (ℓ : Loc nD τ sig) → Buf (Elt Ideal) ℓ) (ρ : Dev nD → PrngReg)

/-- The affine map of the launched arguments, rows × features. -/
abbrev result (c : Dev nD) : FVec Ideal Cert.Affine.RowsByFeat .f32 :=
  Cert.Affine.rowsForm (xArg m c) (wArg m c) (bArg m c)

/-- Transposing the features × rows form gives the rows × features form. -/
theorem transposed_back (c : Dev nD) :
    transpose S65536x32 [1, 0] (target m c) transposes_S32x65536_S65536x32_1_0 = result m c := by
  funext i
  obtain ⟨r, d, rfl⟩ : ∃ (r : Fin 65536) (d : Fin 32), i = ix2 r d := ⟨i 0, i 1, eq_ix2 i⟩
  exact transpose_apply [1, 0] (target m c) transposes_S32x65536_S65536x32_1_0 (ix2 r d) (ix2 d r)
    (fun b => match b with | ⟨0, _⟩ => rfl | ⟨1, _⟩ => rfl)

/-- What the host line after the region leaves in the result buffer. -/
theorem tail_result (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 3).trans (region_array m c)]
  exact transposed_back m c

/-- Every weakly fair execution of the idealized kernel terminates with the result buffer at the affine map of the
    launched arguments, and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  A linear layer, y = x · W + b with x of 65536 rows and 32 features, W 32 × 32 (stored in × out) and b of 32
  features, computed two ways.

  The reference multiplies on the host and adds the bias broadcast down the rows.

  The kernel works in the transposed layout: it transposes x to features × rows, and over a 2 × 2 grid multiplies
  Wᵀ (the product contracts W's first axis) into a 16384-column slab of a 32768-column input block, adds the bias as
  a column, and writes the 16384-column block 2·i + j of a features × rows array, which it finally transposes back.

  Over the extended reals both results are, entry by entry,  (Σ_{k<32} x[r, k] · W[k, d]) + b[d]:  the kernel's
  products have their factors in the other order, and the product of two extended reals commutes. Nothing else is
  used: the sums run over the same 32 terms in both programs, so no input has to be finite, and the only constant
  of either program is the zero the kernel's product accumulates into (0 + s = s).

  The two kernel frames are the generated ones; the reference's frame is its run with the result dropped; the
  idealization rewrote nothing.
-/
import proofs.«172693_g32521492365339_cont_8to1_b_661_17_alg».proof.Defs
import proofs.«172693_g32521492365339_cont_8to1_b_661_17_alg».proof.Proof.Gen.Kernel
import proofs.«172693_g32521492365339_cont_8to1_b_661_17_alg».proof.Proof.Gen.Kernel.Skeleton
import proofs.«172693_g32521492365339_cont_8to1_b_661_17_alg».proof.Proof.Gen.Kernel.Launch
import proofs.«172693_g32521492365339_cont_8to1_b_661_17_alg».proof.Proof.Gen.Kernel.Points
import proofs.«172693_g32521492365339_cont_8to1_b_661_17_alg».proof.Proof.Gen.Kernel.Frame
import proofs.«172693_g32521492365339_cont_8to1_b_661_17_alg».proof.Proof.Gen.KernelIdeal
import proofs.«172693_g32521492365339_cont_8to1_b_661_17_alg».proof.Proof.Gen.KernelIdeal.Skeleton
import proofs.«172693_g32521492365339_cont_8to1_b_661_17_alg».proof.Proof.Gen.KernelIdeal.Launch
import proofs.«172693_g32521492365339_cont_8to1_b_661_17_alg».proof.Proof.Gen.KernelIdeal.Points
import proofs.«172693_g32521492365339_cont_8to1_b_661_17_alg».proof.Proof.Gen.KernelIdeal.Frame
import proofs.«172693_g32521492365339_cont_8to1_b_661_17_alg».proof.Proof.Gen.ReferenceIdeal
import proofs.«172693_g32521492365339_cont_8to1_b_661_17_alg».proof.Proof.Gen.ReferenceIdeal.Run
import proofs.«172693_g32521492365339_cont_8to1_b_661_17_alg».proof.Proof.Gen.ReferenceIdeal.Read
import proofs.«172693_g32521492365339_cont_8to1_b_661_17_alg».proof.Proof.Gen.Pre_finite_inputs
import proofs.«172693_g32521492365339_cont_8to1_b_661_17_alg».proof.Proof.Affine
import proofs.«172693_g32521492365339_cont_8to1_b_661_17_alg».proof.Proof.RefAffine
import proofs.«172693_g32521492365339_cont_8to1_b_661_17_alg».proof.Proof.KernelResult
import Idealize.ShloMosaic.Adequacy
import Idealize.ShloMosaic.Init

noncomputable section

namespace Cert.Proof

open Idealize.ShloMosaic Idealize.SL.Sem

/-- Both idealized programs, run from memories that agree on x, W and b, end with the affine map of those
    arguments in their result buffers, and with the arguments unchanged. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.IsAffine.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
